-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S1600000x39 : Shape := ⟨2, ![1600000, 39]⟩
abbrev S43x64 : Shape := ⟨2, ![43, 64]⟩
abbrev S64 : Shape := ⟨1, ![64]⟩
abbrev S64x128 : Shape := ⟨2, ![64, 128]⟩
abbrev S128 : Shape := ⟨1, ![128]⟩
abbrev S132x256 : Shape := ⟨2, ![132, 256]⟩
abbrev S256 : Shape := ⟨1, ![256]⟩
abbrev S256x256 : Shape := ⟨2, ![256, 256]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000x39 : S_.BroadcastsInDim S1600000x39 (![] : Fin 0 → Fin S1600000x39.rank)
  reducesTo_S1600000x39_S_d0_1 : S1600000x39.ReducesTo [0, 1] S_
  bcast_S_S43x64 : S_.BroadcastsInDim S43x64 (![] : Fin 0 → Fin S43x64.rank)
  reducesTo_S43x64_S_d0_1 : S43x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S132x256 : S_.BroadcastsInDim S132x256 (![] : Fin 0 → Fin S132x256.rank)
  reducesTo_S132x256_S_d0_1 : S132x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S132x256 .f32) (main_arg8 : FVec F S256 .f32) (main_arg9 : FVec F S256x256 .f32) (main_arg10 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S132x256 .f32 := Host.absf main_arg7
  let main_cst_10 : FVec F S_ .f32 := constant S_ .f32 0x7F800000#32
  let main_v30 : FVec F S132x256 .f32 := broadcastInDim S132x256 ![] bcast_S_S132x256 main_cst_10
  let main_v31 : IVec S132x256 1 := cmpf .olt main_v29 main_v30
  let main_c_11 : IVec S_ 1 := constantI S_ 1 1#1
  let main_v32 : IVec S_ 1 := (fun x v => Host.reduce IntOp.andi x v reducesTo_S132x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x4 .f32) (main_arg1 : IVec S2x1600000 32) (main_arg2 : FVec F S1600000x39 .f32) (main_arg3 : FVec F S43x64 .f32) (main_arg4 : FVec F S64 .f32) (main_arg5 : FVec F S64x128 .f32) (main_arg6 : FVec F S128 .f32) (main_arg7 : FVec F S132x256 .f32) (main_arg8 : FVec F S256 .f32) (main_arg9 : FVec F S256x256 .f32) (main_arg10 : FVec F S256 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000x39 .f32 := Host.absf main_arg2
  let main_cst_0 : FVec F S_ .f32 := constant S_ .f32 0x7F800000#32
  let main_v5 : FVec F S1600000x39 .f32 := broadcastInDim S1600000x39 ![] bcast_S_S1600000x39 main_cst_0
  let main_v6 : IVec S1600000x39 1 := cmpf .olt main_v4 main_v5
  let main_c_1 : IVec S_ 1 := constantI S_ 1 1#1
  let main_v7 : IVec S_ 1 := (fun x v => Host.reduce IntOp.andi x v reducesTo_S1600000x39_S_d0_1 h_S_) main_v6 main_c_1
  let main_v8 : IVec S_ 1 := andi main_v3 main_v7
  let main_v9 : FVec F S43x64 .f32 := Host.absf main_arg3
  let main_cst_2 : FVec F S_ .f32 := constant S_ .f32 0x7F800000#32
  let main_v10 : FVec F S43x64 .f32 := broadcastInDim S43x64 ![] bcast_S_S43x64 main_cst_2
  let main_v11 : IVec S43x64 1 := cmpf .olt main_v9 main_v10
  let main_c_3 : IVec S_ 1 := constantI S_ 1 1#1
  let main_v12 : IVec S_ 1 := (fun x v => Host.reduce IntOp.andi x v reducesTo_S43x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x4 : Shape := ⟨2, ![100000, 4]⟩
abbrev S2x1600000 : Shape := ⟨2, ![2, 1600000]⟩
abbrev S1600000x39 : Shape := ⟨2, ![1600000, 39]⟩
abbrev S43x64 : Shape := ⟨2, ![43, 64]⟩
abbrev S64 : Shape := ⟨1, ![64]⟩
abbrev S64x128 : Shape := ⟨2, ![64, 128]⟩
abbrev S128 : Shape := ⟨1, ![128]⟩
abbrev S132x256 : Shape := ⟨2, ![132, 256]⟩
abbrev S256 : Shape := ⟨1, ![256]⟩
abbrev S256x256 : Shape := ⟨2, ![256, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1x64 : Shape := ⟨2, ![1, 64]⟩
abbrev S1x128 : Shape := ⟨2, ![1, 128]⟩
abbrev S1600000x128 : Shape := ⟨2, ![1600000, 128]⟩
abbrev S25000x4 : Shape := ⟨2, ![25000, 4]⟩
abbrev S25000x39 : Shape := ⟨2, ![25000, 39]⟩
abbrev S25000x128 : Shape := ⟨2, ![25000, 128]⟩
abbrev S25000x43 : Shape := ⟨2, ![25000, 43]⟩
abbrev S25000x64 : Shape := ⟨2, ![25000, 64]⟩
abbrev S100000x128 : Shape := ⟨2, ![100000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S10000x4 : Shape := ⟨2, ![10000, 4]⟩
abbrev S10000x128 : Shape := ⟨2, ![10000, 128]⟩
abbrev S10000x256 : Shape := ⟨2, ![10000, 256]⟩
abbrev S10000x132 : Shape := ⟨2, ![10000, 132]⟩

abbrev nBuf : Space → Nat
  | .hbm => 46
  | .vmem => 20
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S1600000x39, .f32⟩
  | .hbm, ⟨3, _⟩ => ⟨S43x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S132x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x4, .f32⟩
  | .hbm, ⟨24, _⟩ => ⟨S1x64, .f32⟩
  | .hbm, ⟨25, _⟩ => ⟨S1x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x256, .f32⟩
  | .hbm, ⟨44, _⟩ => ⟨S1x256, .f32⟩
  | .hbm, ⟨45, _⟩ => ⟨S100000x256, .f32⟩
  | .local _ .vmem, ⟨0, _⟩ => ⟨S25000x4, .f32⟩
  | .local _ .vmem, ⟨1, _⟩ => ⟨S25000x4, .f32⟩
  | .local _ .vmem, ⟨2, _⟩ => ⟨S25000x39, .f32⟩
  | .local _ .vmem, ⟨3, _⟩ => ⟨S25000x39, .f32⟩
  | .local _ .vmem, ⟨4, _⟩ => ⟨S43x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S25000x128, .f32⟩
  | .local _ .vmem, ⟨9, _⟩ => ⟨S25000x128, .f32⟩
  | .local _ .vmem, ⟨10, _⟩ => ⟨S10000x4, .f32⟩
  | .local _ .vmem, ⟨11, _⟩ => ⟨S10000x4, .f32⟩
  | .local _ .vmem, ⟨12, _⟩ => ⟨S10000x128, .f32⟩
  | .local _ .vmem, ⟨13, _⟩ => ⟨S10000x128, .f32⟩
  | .local _ .vmem, ⟨14, _⟩ => ⟨S132x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S10000x256, .f32⟩
  | .local _ .vmem, ⟨19, _⟩ => ⟨S10000x256, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25000x39 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S43x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S25000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S132x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  shapeCasts_S128_S1x128 : S128.ShapeCasts S1x128
  inb_S25000x4_S25000x4_0_0 : ∀ a, (![0, 0] : Fin 2 → Nat) a + S25000x4.size a ≤ S25000x4.size a
  h_S25000x4 : 0 < S25000x4.numel
  shapeCasts_S25000x4_S25000x4 : S25000x4.ShapeCasts S25000x4
  inb_S25000x39_S25000x39_0_0 : ∀ a, (![0, 0] : Fin 2 → Nat) a + S25000x39.size a ≤ S25000x39.size a
  h_S25000x39 : 0 < S25000x39.numel
  concatenates_S25000x4_S25000x39_S25000x43_d1 : Shape.Concatenates [S25000x4, S25000x39] S25000x43 1
  inb_S43x64_S43x64_0_0 : ∀ a, (![0, 0] : Fin 2 → Nat) a + S43x64.size a ≤ S43x64.size a
  h_S43x64 : 0 < S43x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S25000x128 : S1x128.Broadcasts S25000x128
  inb_S25000x128_S25000x128_0_0 : ∀ a, (![0, 0] : Fin 2 → Nat) a + S25000x128.size a ≤ S25000x128.size a
  h_S25000x128 : 0 < S25000x128.numel
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S10000x4_S10000x4_0_0 : ∀ a, (![0, 0] : Fin 2 → Nat) a + S10000x4.size a ≤ S10000x4.size a
  h_S10000x4 : 0 < S10000x4.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x4_S10000x128_S10000x132_d1 : Shape.Concatenates [S10000x4, S10000x128] S10000x132 1
  inb_S132x256_S132x256_0_0 : ∀ a, (![0, 0] : Fin 2 → Nat) a + S132x256.size a ≤ S132x256.size a
  h_S132x256 : 0 < S132x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x256_S256x256_0_0 : ∀ a, (![0, 0] : Fin 2 → Nat) a + S256x256.size a ≤ S256x256.size a
  h_S256x256 : 0 < S256x256.numel
  inb_S10000x256_S10000x256_0_0 : ∀ a, (![0, 0] : Fin 2 → Nat) a + S10000x256.size a ≤ S10000x256.size a
  h_S10000x256 : 0 < S10000x256.numel
  gather_S100000x4_S1600000x1_S1600000x4_1_0_n_n_0_1_14_wf : GatherDims.WF S100000x4 S1600000x1 S1600000x4 [1] [0] [] [0] [] 1 ![1, 4]
  dot_S25000x43_S43x64_S25000x64_1_0_0_1_n_n_wf : DotDims.WF S25000x43 S43x64 S25000x64 [1] [0] [0] [1] [] []
  dot_S25000x64_S64x128_S25000x128_1_0_0_1_n_n_wf : DotDims.WF S25000x64 S64x128 S25000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x132_S132x256_S10000x256_1_0_0_1_n_n_wf : DotDims.WF S10000x132 S132x256 S10000x256 [1] [0] [0] [1] [] []
  dot_S10000x256_S256x256_S10000x256_1_0_0_1_n_n_wf : DotDims.WF S10000x256 S256x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x4.size a ≤ S1600000x4.size a
  hwx0_0 : ∀ i : grid0.Coords, EltTy.bits .f32 = 32 ∨ (Rect.block (s := S1600000x4) S25000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x39.size a ≤ S1600000x39.size a
  hwx0_1 : ∀ i : grid0.Coords, EltTy.bits .f32 = 32 ∨ (Rect.block (s := S1600000x39) S25000x39.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S43x64.size a ≤ S43x64.size a
  hwx0_2 : ∀ i : grid0.Coords, EltTy.bits .f32 = 32 ∨ (Rect.block (s := S43x64) S43x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S25000x128.size a ≤ S1600000x128.size a
  hwx0_6 : ∀ i : grid0.Coords, EltTy.bits .f32 = 32 ∨ (Rect.block (s := S1600000x128) S25000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S100000x4.size a
  hwx1_0 : ∀ i : grid1.Coords, EltTy.bits .f32 = 32 ∨ (Rect.block (s := S100000x4) S10000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S132x256.size a ≤ S132x256.size a
  hwx1_2 : ∀ i : grid1.Coords, EltTy.bits .f32 = 32 ∨ (Rect.block (s := S132x256) S132x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x256.size a ≤ S100000x256.size a
  hwx1_6 : ∀ i : grid1.Coords, EltTy.bits .f32 = 32 ∨ (Rect.block (s := S100000x256) S10000x256.size (cc1_transform_6 i) (hinb1_6 i)).WholeWords (EltTy.packing .f32)

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S25000x43_S43x64_S25000x64_1_0_0_1_n_n : DotDims S25000x43 S43x64 S25000x64 where
  lhsContracting := [1]
  rhsContracting := [0]
  lhsNonContracting := [0]
  rhsNonContracting := [1]
  lhsBatch := []
  rhsBatch := []
  wf := dot_S25000x43_S43x64_S25000x64_1_0_0_1_n_n_wf
def dot_S25000x64_S64x128_S25000x128_1_0_0_1_n_n : DotDims S25000x64 S64x128 S25000x128 where
  lhsContracting := [1]
  rhsContracting := [0]
  lhsNonContracting := [0]
  rhsNonContracting := [1]
  lhsBatch := []
  rhsBatch := []
  wf := dot_S25000x64_S64x128_S25000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x132_S132x256_S10000x256_1_0_0_1_n_n : DotDims S10000x132 S132x256 S10000x256 where
  lhsContracting := [1]
  rhsContracting := [0]
  lhsNonContracting := [0]
  rhsNonContracting := [1]
  lhsBatch := []
  rhsBatch := []
  wf := dot_S10000x132_S132x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

abbrev win0_0 : Pipeline.Window sig grid0 :=
  Pipeline.Window.ofSpec (Memref.whole main_v10) S25000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S25000x39.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S43x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S25000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S132x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S10000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S1600000x39 : Shape := ⟨2, ![1600000, 39]⟩
abbrev S43x64 : Shape := ⟨2, ![43, 64]⟩
abbrev S64 : Shape := ⟨1, ![64]⟩
abbrev S64x128 : Shape := ⟨2, ![64, 128]⟩
abbrev S128 : Shape := ⟨1, ![128]⟩
abbrev S132x256 : Shape := ⟨2, ![132, 256]⟩
abbrev S256 : Shape := ⟨1, ![256]⟩
abbrev S256x256 : Shape := ⟨2, ![256, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1600000x43 : Shape := ⟨2, ![1600000, 43]⟩
abbrev S1600000x64 : Shape := ⟨2, ![1600000, 64]⟩
abbrev S1x64 : Shape := ⟨2, ![1, 64]⟩
abbrev S1600000x128 : Shape := ⟨2, ![1600000, 128]⟩
abbrev S1x128 : Shape := ⟨2, ![1, 128]⟩
abbrev S100000x128 : Shape := ⟨2, ![100000, 128]⟩
abbrev S100000 : Shape := ⟨1, ![100000]⟩
abbrev S100000x1 : Shape := ⟨2, ![100000, 1]⟩
abbrev S100000x132 : Shape := ⟨2, ![100000, 132]⟩
abbrev S100000x256 : Shape := ⟨2, ![100000, 256]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S1600000x39, .f32⟩
  | .hbm, ⟨3, _⟩ => ⟨S43x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S132x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x4, .f32⟩
  | .hbm, ⟨24, _⟩ => ⟨S1600000x43, .f32⟩
  | .hbm, ⟨25, _⟩ => ⟨S1600000x64, .f32⟩
  | .hbm, ⟨26, _⟩ => ⟨S1x64, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S1600000x64, .f32⟩
  | .hbm, ⟨31, _⟩ => ⟨S1600000x64, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x132, .f32⟩
  | .hbm, ⟨56, _⟩ => ⟨S100000x256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S_, .f32⟩
  | .hbm, ⟨61, _⟩ => ⟨S100000x256, .f32⟩
  | .hbm, ⟨62, _⟩ => ⟨S100000x256, .f32⟩
  | .hbm, ⟨63, _⟩ => ⟨S100000x256, .f32⟩
  | .hbm, ⟨64, _⟩ => ⟨S1x256, .f32⟩
  | .hbm, ⟨65, _⟩ => ⟨S100000x256, .f32⟩
  | .hbm, ⟨66, _⟩ => ⟨S100000x256, .f32⟩
  | .hbm, ⟨67, _⟩ => ⟨S_, .f32⟩
  | .hbm, ⟨68, _⟩ => ⟨S100000x256, .f32⟩
  | .hbm, ⟨69, _⟩ => ⟨S100000x256, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_cst : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call3_cst : Ref sig .tc := ⟨.hbm, 67, rfl⟩
abbrev main_call3_v0 : Ref sig .tc := ⟨.hbm, 68, rfl⟩
abbrev main_v44 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x4_S1600000x39_S1600000x43_d1 : Shape.Concatenates [S1600000x4, S1600000x39] S1600000x43 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x4_S100000x128_S100000x132_d1 : Shape.Concatenates [S100000x4, S100000x128] S100000x132 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S100000x4_S1600000x1_S1600000x4_1_0_n_n_0_1_14_wf : GatherDims.WF S100000x4 S1600000x1 S1600000x4 [1] [0] [] [0] [] 1 ![1, 4]
  dot_S1600000x43_S43x64_S1600000x64_1_0_0_1_n_n_wf : DotDims.WF S1600000x43 S43x64 S1600000x64 [1] [0] [0] [1] [] []
  dot_S1600000x64_S64x128_S1600000x128_1_0_0_1_n_n_wf : DotDims.WF S1600000x64 S64x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x132_S132x256_S100000x256_1_0_0_1_n_n_wf : DotDims.WF S100000x132 S132x256 S100000x256 [1] [0] [0] [1] [] []
  dot_S100000x256_S256x256_S100000x256_1_0_0_1_n_n_wf : DotDims.WF S100000x256 S256x256 S100000x256 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S1600000x43_S43x64_S1600000x64_1_0_0_1_n_n : DotDims S1600000x43 S43x64 S1600000x64 where
  lhsContracting := [1]
  rhsContracting := [0]
  lhsNonContracting := [0]
  rhsNonContracting := [1]
  lhsBatch := []
  rhsBatch := []
  wf := dot_S1600000x43_S43x64_S1600000x64_1_0_0_1_n_n_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x132_S132x256_S100000x256_1_0_0_1_n_n : DotDims S100000x132 S132x256 S100000x256 where
  lhsContracting := [1]
  rhsContracting := [0]
  lhsNonContracting := [0]
  rhsNonContracting := [1]
  lhsBatch := []
  rhsBatch := []
  wf := dot_S100000x132_S132x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.LibMlp2.lean ====
/-
  A general lemma: TWO DENSE LAYERS WITH A RECTIFIER AFTER EACH, applied to the rows of a matrix `[u | v]` that is
  two matrices side by side — read at an index on the extended reals, in a kernel's spelling and in the host's.

  For a row `a` of length `K`, a weight matrix `W` of `K` rows and `N` columns, a bias `b` of length `N` and a
  threshold `z`, one layer is `dense z a W b q = max (∑ k < K, a k · W k q + b q) z`. The row of the concatenation is
  `cat u v`: its first `A` entries are `u`'s and the rest `v`'s. Two layers are
  `mlp2 z u v W b W' b' = dense z (dense z (cat u v) W b) W' b'`.

  A kernel spells a layer `maximumf (addf (matmul … into a zero accumulator) (the bias's one row broadcast down the
  rows)) (a splat of the threshold)`; the host spells it `maximumf (addf (dot_general …) (the bias vector broadcast
  to one row, then down the rows)) (the threshold, a scalar, broadcast)`. Entry `(p, q)` of either is the layer at
  row `p` of the left operand: each product entry is the sum over the contracted axis, every other operation reads
  its operands at one index. No law of arithmetic is used, so nothing is asked of the entries: they may be infinite.
  Stated for any sizes and any records with the plain dimension numbers (contract axis 1 with axis 0, no batch axis).
-/
import proofs.«408804_j19292993094373_1_alg».proof.Proof.LibPlainMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.Lib.Mlp2

open Idealize.ShloMosaic Idealize.ShloMosaic.ValueIdx

/-! ## The mathematics -/

/-- The row `[u | v]`: entry `l` is `u l` below `A` and `v (l − A)` from `A` on. (Past `A + B`, where no index of a
    concatenation lies, it is zero.) -/
def cat {A B C : Nat} (u : Fin A → EReal) (v : Fin B → EReal) (l : Fin C) : EReal :=
  if h : l.val < A then u ⟨l.val, h⟩ else if h' : l.val - A < B then v ⟨l.val - A, h'⟩ else 0

/-- One dense layer and its rectifier: `max (∑ k, a k · W k q + b q) z`. -/
def dense {K N : Nat} (z : EReal) (a : Fin K → EReal) (W : Fin K → Fin N → EReal) (b : Fin N → EReal) (q : Fin N) : EReal :=
  max (∑ k : Fin K, a k * W k q + b q) z

/-- Two layers on the row `[u | v]`. -/
def mlp2 {A B C H O : Nat} (z : EReal) (u : Fin A → EReal) (v : Fin B → EReal) (W : Fin C → Fin H → EReal)
    (b : Fin H → EReal) (W' : Fin H → Fin O → EReal) (b' : Fin O → EReal) : Fin O → EReal :=
  dense z (dense z (cat u v) W b) W' b'

/-! ## Two matrices side by side, read at an index -/

/-- Entry `(p, l)` of `[x₀ | x₁]` is entry `l` of the row `[x₀ p · | x₁ p ·]`. -/
theorem concat_row_apply {R A B C : Nat} (hC : A + B = C) (x0 : (⟨2, ![R, A]⟩ : Shape).Idx → EReal)
    (x1 : (⟨2, ![R, B]⟩ : Shape).Idx → EReal)
    (h : Shape.Concatenates [(⟨2, ![R, A]⟩ : Shape), ⟨2, ![R, B]⟩] ⟨2, ![R, C]⟩ (1 : Fin 2)) (p : Fin R) (l : Fin C) :
    concatenate ⟨2, ![R, C]⟩ (1 : Fin 2) [⟨⟨2, ![R, A]⟩, x0⟩, ⟨⟨2, ![R, B]⟩, x1⟩] h (ix2 p l)
      = cat (fun a => x0 (ix2 p a)) (fun a => x1 (ix2 p a)) l := by
  by_cases hl : l.val < A
  · rw [cat, dif_pos hl]
    exact concatenate_pair_apply_left (1 : Fin 2) x0 x1 h (ix2 p l) rfl (ix2 p ⟨l.val, hl⟩) (fun b => by
      match b with
      | ⟨0, _⟩ => rfl
      | ⟨1, _⟩ => rfl)
  · have hl' : l.val - A < B := by have := l.isLt; omega
    rw [cat, dif_neg hl, dif_pos hl']
    exact concatenate_pair_apply_right (1 : Fin 2) x0 x1 h (ix2 p l) rfl rfl (ix2 p ⟨l.val - A, hl'⟩) (fun b hb => by
      match b, hb with
      | ⟨0, _⟩, _ => rfl
      | ⟨1, _⟩, hb => exact absurd rfl hb) (by
      show (l.val - A) + A = l.val
      omega)

/-! ## One layer -/

section Layer
variable {R K N : Nat} (d : DotDims ⟨2, ![R, K]⟩ ⟨2, ![K, N]⟩ ⟨2, ![R, N]⟩)
  (h1 : d.lhsContracting = [1]) (h2 : d.rhsContracting = [0]) (h3 : d.lhsNonContracting = [0])
  (h4 : d.rhsNonContracting = [1]) (h5 : d.lhsBatch = []) (h6 : d.rhsBatch = [])
include h1 h2 h3 h4 h5 h6

/-- A kernel's layer at `(p, q)`: the product into a zero accumulator, the bias's one row broadcast down the rows, the
    maximum with a splat of the threshold. -/
theorem kernel_dense_apply (prec : Option ContractPrecision) (l : FVec Ideal ⟨2, ![R, K]⟩ .f32)
    (w : FVec Ideal ⟨2, ![K, N]⟩ .f32) (b : FVec Ideal ⟨2, ![1, N]⟩ .f32)
    (hb : (⟨2, ![1, N]⟩ : Shape).Broadcasts ⟨2, ![R, N]⟩) (zb : BitVec 32) (p : Fin R) (q : Fin N) :
    maximumf (addf (matmul d prec l w (constant ⟨2, ![R, N]⟩ .f32 0x00000000#32)) (broadcastTo ⟨2, ![R, N]⟩ b hb))
        (broadcast ⟨2, ![R, N]⟩ (Scalar.ofBits (F := Ideal) .f32 zb)) (ix2 p q)
      = dense (Ideal.ofBits .f32 zb) (fun k => l (ix2 p k)) (fun k q => w (ix2 k q)) (fun q => b (ix2 (0 : Fin 1) q)) q := by
  rw [maximumf_apply, addf_apply, broadcast_apply, broadcastTo_1b_ab_apply]
  refine congrArg (fun s => max (s + b (ix2 (0 : Fin 1) q)) _) ?_
  exact Cert.Lib.matmul_plain_apply d h1 h2 h3 h4 h5 h6 prec l w p q

/-- The host's layer at `(p, q)`: the product, the bias vector broadcast to one row and then down the rows, the maximum
    with the broadcast scalar threshold. -/
theorem host_dense_apply (prec : Option ContractPrecision) (l : FVec Ideal ⟨2, ![R, K]⟩ .f32)
    (w : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (hz : (⟨0, ![]⟩ : Shape).BroadcastsInDim ⟨2, ![R, N]⟩ ![]) (zb : BitVec 32) (p : Fin R) (q : Fin N) :
    maximumf (addf (Host.dotGeneral d prec l w)
          (broadcastInDim ⟨2, ![R, N]⟩ ![0, 1] hb2 (broadcastInDim ⟨2, ![1, N]⟩ ![1] hb1 b)))
        (broadcastInDim ⟨2, ![R, N]⟩ ![] hz (constant (F := Ideal) ⟨0, ![]⟩ .f32 zb)) (ix2 p q)
      = dense (Ideal.ofBits .f32 zb) (fun k => l (ix2 p k)) (fun k q => w (ix2 k q)) (fun q => b (ix1 q)) q := by
  rw [maximumf_apply, addf_apply, broadcastInDim_scalar_apply, constant_apply, broadcastInDim_oneRow_apply]
  have eb : broadcastInDim ⟨2, ![1, N]⟩ ![1] hb1 b (ix2 (0 : Fin 1) q) = b (ix1 q) :=
    broadcastInDim_apply ![1] hb1 b (ix2 (0 : Fin 1) q) (ix1 q) (fun a => by
      match a with
      | ⟨0, _⟩ =>
        show q.val = if N = 1 then 0 else q.val
        split
        · have := q.isLt; omega
        · rfl)
  rw [eb]
  refine congrArg (fun s => max (s + b (ix1 q)) _) ?_
  exact Cert.Lib.dotGeneral_plain_apply d h1 h2 h3 h4 h5 h6 prec _ l w p q

end Layer

/-! ## Two layers on two matrices side by side -/

section TwoLayers
variable {R A B C H O : Nat} (hC : A + B = C)
  (hcat : Shape.Concatenates [(⟨2, ![R, A]⟩ : Shape), ⟨2, ![R, B]⟩] ⟨2, ![R, C]⟩ (1 : Fin 2))
  (d : DotDims ⟨2, ![R, C]⟩ ⟨2, ![C, H]⟩ ⟨2, ![R, H]⟩)
  (h1 : d.lhsContracting = [1]) (h2 : d.rhsContracting = [0]) (h3 : d.lhsNonContracting = [0])
  (h4 : d.rhsNonContracting = [1]) (h5 : d.lhsBatch = []) (h6 : d.rhsBatch = [])
  (d' : DotDims ⟨2, ![R, H]⟩ ⟨2, ![H, O]⟩ ⟨2, ![R, O]⟩)
  (h1' : d'.lhsContracting = [1]) (h2' : d'.rhsContracting = [0]) (h3' : d'.lhsNonContracting = [0])
  (h4' : d'.rhsNonContracting = [1]) (h5' : d'.lhsBatch = []) (h6' : d'.rhsBatch = [])
include hC h1 h2 h3 h4 h5 h6 h1' h2' h3' h4' h5' h6'

/-- A kernel's two layers on `[x₀ | x₁]`, at `(p, q)`: the two layers on row `p`. -/
theorem kernel_mlp2_apply (prec prec' : Option ContractPrecision)
    (x0 : FVec Ideal ⟨2, ![R, A]⟩ .f32) (x1 : FVec Ideal ⟨2, ![R, B]⟩ .f32)
    (w : FVec Ideal ⟨2, ![C, H]⟩ .f32) (b : FVec Ideal ⟨2, ![1, H]⟩ .f32)
    (w' : FVec Ideal ⟨2, ![H, O]⟩ .f32) (b' : FVec Ideal ⟨2, ![1, O]⟩ .f32)
    (hb : (⟨2, ![1, H]⟩ : Shape).Broadcasts ⟨2, ![R, H]⟩) (hb' : (⟨2, ![1, O]⟩ : Shape).Broadcasts ⟨2, ![R, O]⟩)
    (zb : BitVec 32) (p : Fin R) (q : Fin O) :
    maximumf (addf (matmul d' prec'
          (maximumf (addf (matmul d prec
                (concatenate ⟨2, ![R, C]⟩ (1 : Fin 2) [⟨⟨2, ![R, A]⟩, x0⟩, ⟨⟨2, ![R, B]⟩, x1⟩] hcat) w
                (constant ⟨2, ![R, H]⟩ .f32 0x00000000#32)) (broadcastTo ⟨2, ![R, H]⟩ b hb))
            (broadcast ⟨2, ![R, H]⟩ (Scalar.ofBits (F := Ideal) .f32 zb)))
          w' (constant ⟨2, ![R, O]⟩ .f32 0x00000000#32)) (broadcastTo ⟨2, ![R, O]⟩ b' hb'))
        (broadcast ⟨2, ![R, O]⟩ (Scalar.ofBits (F := Ideal) .f32 zb)) (ix2 p q)
      = mlp2 (Ideal.ofBits .f32 zb) (fun a => x0 (ix2 p a)) (fun a => x1 (ix2 p a)) (fun l k => w (ix2 l k))
          (fun k => b (ix2 (0 : Fin 1) k)) (fun k j => w' (ix2 k j)) (fun j => b' (ix2 (0 : Fin 1) j)) q := by
  rw [kernel_dense_apply d' h1' h2' h3' h4' h5' h6']
  unfold mlp2
  refine congrArg (fun a => dense _ a _ _ q) (funext fun k => ?_)
  rw [kernel_dense_apply d h1 h2 h3 h4 h5 h6]
  exact congrArg (fun a => dense _ a _ _ k) (funext fun l => concat_row_apply hC x0 x1 hcat p l)

/-- The host's two layers on `[x₀ | x₁]`, at `(p, q)`: the two layers on row `p`. -/
theorem host_mlp2_apply (prec prec' : Option ContractPrecision)
    (x0 : FVec Ideal ⟨2, ![R, A]⟩ .f32) (x1 : FVec Ideal ⟨2, ![R, B]⟩ .f32)
    (w : FVec Ideal ⟨2, ![C, H]⟩ .f32) (b : FVec Ideal ⟨1, ![H]⟩ .f32)
    (w' : FVec Ideal ⟨2, ![H, O]⟩ .f32) (b' : FVec Ideal ⟨1, ![O]⟩ .f32)
    (hb1 : (⟨1, ![H]⟩ : Shape).BroadcastsInDim ⟨2, ![1, H]⟩ ![1])
    (hb2 : (⟨2, ![1, H]⟩ : Shape).BroadcastsInDim ⟨2, ![R, H]⟩ ![0, 1])
    (hz : (⟨0, ![]⟩ : Shape).BroadcastsInDim ⟨2, ![R, H]⟩ ![])
    (hb1' : (⟨1, ![O]⟩ : Shape).BroadcastsInDim ⟨2, ![1, O]⟩ ![1])
    (hb2' : (⟨2, ![1, O]⟩ : Shape).BroadcastsInDim ⟨2, ![R, O]⟩ ![0, 1])
    (hz' : (⟨0, ![]⟩ : Shape).BroadcastsInDim ⟨2, ![R, O]⟩ ![])
    (zb : BitVec 32) (p : Fin R) (q : Fin O) :
    maximumf (addf (Host.dotGeneral d' prec'
          (maximumf (addf (Host.dotGeneral d prec
                (concatenate ⟨2, ![R, C]⟩ (1 : Fin 2) [⟨⟨2, ![R, A]⟩, x0⟩, ⟨⟨2, ![R, B]⟩, x1⟩] hcat) w)
              (broadcastInDim ⟨2, ![R, H]⟩ ![0, 1] hb2 (broadcastInDim ⟨2, ![1, H]⟩ ![1] hb1 b)))
            (broadcastInDim ⟨2, ![R, H]⟩ ![] hz (constant (F := Ideal) ⟨0, ![]⟩ .f32 zb)))
          w')
          (broadcastInDim ⟨2, ![R, O]⟩ ![0, 1] hb2' (broadcastInDim ⟨2, ![1, O]⟩ ![1] hb1' b')))
        (broadcastInDim ⟨2, ![R, O]⟩ ![] hz' (constant (F := Ideal) ⟨0, ![]⟩ .f32 zb)) (ix2 p q)
      = mlp2 (Ideal.ofBits .f32 zb) (fun a => x0 (ix2 p a)) (fun a => x1 (ix2 p a)) (fun l k => w (ix2 l k))
          (fun k => b (ix1 k)) (fun k j => w' (ix2 k j)) (fun j => b' (ix1 j)) q := by
  rw [host_dense_apply d' h1' h2' h3' h4' h5' h6']
  unfold mlp2
  refine congrArg (fun a => dense _ a _ _ q) (funext fun k => ?_)
  rw [host_dense_apply d h1 h2 h3 h4 h5 h6]
  exact congrArg (fun a => dense _ a _ _ k) (funext fun l => concat_row_apply hC x0 x1 hcat p l)

end TwoLayers

end Cert.Lib.Mlp2

end
-- ==== Proof.EdgeValue.lean ====
/-
  THE EDGE STAGE. After the first pallas_call its result array holds, in row `e`, the two dense layers (a rectifier after
  each) on the row `[xg e · | ea e ·]` — `xg` the gathered node features and `ea` the edge attributes as the call finds
  them —, whatever the grid: point `t` computes rows `25000·t … 25000·t + 24999` from the same rows of the two inputs
  and from the whole weight and bias arrays, and the 64 blocks tile the 1,600,000 rows.

  Written here: the body's stored value at an index (`out_apply`: the payload through the two-layer lemma), each input
  window's block as rows of its array (`blk_*`), what point `t` writes back as block `t` of ONE whole-array function
  `msg` (`flushed_eq`), the cover by arithmetic (row `r` is in block `r / 25000`), and the array after the call
  (`final`). Stated at any contents `V` the call is entered from.
-/
import proofs.«408804_j19292993094373_1_alg».proof.Proof.Gen.KernelIdeal.Frame
import proofs.«408804_j19292993094373_1_alg».proof.Proof.LibMlp2
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen Cert.Lib.Mlp2

variable (V : (c : Dev nD) → (b : Ref sig .tc) → Buf (Elt Ideal) ((c : Thread nD τ).loc b))

theorem hz : (![0, 0] : Fin 2 → Nat) = fun _ => 0 := funext fun a => by fin_cases a <;> rfl

/-- The arrays the call's six input windows read, as the call finds them. -/
abbrev xg (c : Dev nD) : FVec Ideal S1600000x4 .f32 := V c main_v10
abbrev ea (c : Dev nD) : FVec Ideal S1600000x39 .f32 := V c main_arg2
abbrev w1 (c : Dev nD) : FVec Ideal S43x64 .f32 := V c main_arg3
abbrev b1 (c : Dev nD) : FVec Ideal S1x64 .f32 := V c main_v11
abbrev w2 (c : Dev nD) : FVec Ideal S64x128 .f32 := V c main_arg5
abbrev b2 (c : Dev nD) : FVec Ideal S1x128 .f32 := V c main_v12

/-- Row `e` of the messages: the two layers on `[xg e · | ea e ·]`. -/
def msgRow (c : Dev nD) (e : Fin 1600000) : Fin 128 → EReal :=
  mlp2 (Ideal.ofBits .f32 0x00000000#32) (fun a => xg V c (ix2 e a)) (fun a => ea V c (ix2 e a))
    (fun l k => w1 V c (ix2 l k)) (fun k => b1 V c (ix2 (0 : Fin 1) k)) (fun k j => w2 V c (ix2 k j))
    (fun j => b2 V c (ix2 (0 : Fin 1) j))

/-- The messages as one array. -/
def msg (c : Dev nD) : FVec Ideal S1600000x128 .f32 := fun i => msgRow V c (i 0) (i 1)

/-- The body's stored value at `(p, q)`: the two layers on row `p` of the two row blocks. -/
theorem out_apply (x0 : Vec Ideal S25000x4 .f32) (x1 : Vec Ideal S25000x39 .f32) (x2 : Vec Ideal S43x64 .f32)
    (x3 : Vec Ideal S1x64 .f32) (x4 : Vec Ideal S64x128 .f32) (x5 : Vec Ideal S1x128 .f32) (p : Fin 25000) (q : Fin 128) :
    out0_6 x0 x1 x2 x3 x4 x5 (ix2 p q)
      = mlp2 (Ideal.ofBits .f32 0x00000000#32) (fun a => x0 (ix2 p a)) (fun a => x1 (ix2 p a)) (fun l k => x2 (ix2 l k))
          (fun k => x3 (ix2 (0 : Fin 1) k)) (fun k j => x4 (ix2 k j)) (fun j => x5 (ix2 (0 : Fin 1) j)) q := by
  unfold out0_6
  rw [View.canon_unit_zero hz]
  simp only [View.ld_unit_zero (S := S25000x4) hz, View.ld_unit_zero (S := S25000x39) hz, View.ld_unit_zero (S := S43x64) hz,
    View.ld_unit_zero (S := S1x64) hz, View.ld_unit_zero (S := S64x128) hz, View.ld_unit_zero (S := S1x128) hz]
  unfold k0_pay1
  simp only [shapeCast_self]
  rw [shapeCast_self]
  exact kernel_mlp2_apply (A := 4) (B := 39) rfl concatenates_S25000x4_S25000x39_S25000x43_d1
    dot_S25000x43_S43x64_S25000x64_1_0_0_1_n_n rfl rfl rfl rfl rfl rfl
    dot_S25000x64_S64x128_S25000x128_1_0_0_1_n_n rfl rfl rfl rfl rfl rfl none none x0 x1 x2 x3 x4 x5
    broadcasts_S1x64_S25000x64 broadcasts_S1x128_S25000x128 0x00000000#32 p q

/-! ## The blocks -/

/-- The printed index maps, decided over the 64 grid points: the two row-blocked inputs and the output are at block
    `(t, 0)`, the weights and biases at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first input's block at point `t` is rows `25000·t …` of the gathered features. -/
theorem blk_xg (c : Dev nD) (t : Fin cfg0.N) (x : S25000x4.Idx) (k : S1600000x4.Idx)
    (hk0 : (k 0).val = 25000 * t.val + (x 0).val) (hk1 : (k 1).val = (x 1).val) :
    (iblk0 V c 0 t : Vec Ideal S25000x4 .f32) x = xg V c k := by
  obtain ⟨e0, e1, -⟩ := idx_facts t
  unfold iblk0
  rw [View.read_apply]
  show V c main_v10 _ = V c main_v10 _
  congr 1
  funext a
  apply Fin.ext
  match a with
  | ⟨0, _⟩ => show win0_0.index t (0 : Fin 2) * 25000 + 1 * (x 0).val = (k 0).val; rw [e0, hk0]; omega
  | ⟨1, _⟩ => show win0_0.index t (1 : Fin 2) * 4 + 1 * (x 1).val = (k 1).val; rw [e1, hk1]; omega

/-- The second input's block at point `t` is the same rows of the edge attributes. -/
theorem blk_ea (c : Dev nD) (t : Fin cfg0.N) (x : S25000x39.Idx) (k : S1600000x39.Idx)
    (hk0 : (k 0).val = 25000 * t.val + (x 0).val) (hk1 : (k 1).val = (x 1).val) :
    (iblk0 V c 1 t : Vec Ideal S25000x39 .f32) x = ea V c k := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 25000 + 1 * (x 0).val = (k 0).val; rw [e0, hk0]; omega
  | ⟨1, _⟩ => show win0_1.index t (1 : Fin 2) * 39 + 1 * (x 1).val = (k 1).val; rw [e1, hk1]; omega

/-- The weight and bias windows' one block is the whole array, at every point. -/
theorem blk_w1 (c : Dev nD) (t : Fin cfg0.N) : (iblk0 V c 2 t : Vec Ideal S43x64 .f32) = w1 V c := by
  obtain ⟨-, -, -, -, e0, e1, -⟩ := idx_facts t
  funext x
  unfold iblk0
  rw [View.read_apply]
  show V c main_arg3 _ = V c main_arg3 x
  congr 1
  funext a
  apply Fin.ext
  match a with
  | ⟨0, _⟩ => show win0_2.index t (0 : Fin 2) * 43 + 1 * (x 0).val = (x 0).val; rw [e0]; omega
  | ⟨1, _⟩ => show win0_2.index t (1 : Fin 2) * 64 + 1 * (x 1).val = (x 1).val; rw [e1]; omega

theorem blk_b1 (c : Dev nD) (t : Fin cfg0.N) : (iblk0 V c 3 t : Vec Ideal S1x64 .f32) = b1 V c := by
  obtain ⟨-, -, -, -, -, -, e0, e1, -⟩ := idx_facts t
  funext x
  unfold iblk0
  rw [View.read_apply]
  show V c main_v11 _ = V c main_v11 x
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

theorem blk_w2 (c : Dev nD) (t : Fin cfg0.N) : (iblk0 V c 4 t : Vec Ideal S64x128 .f32) = w2 V c := by
  obtain ⟨-, -, -, -, -, -, -, -, e0, e1, -⟩ := idx_facts t
  funext x
  unfold iblk0
  rw [View.read_apply]
  show V c main_arg5 _ = V c main_arg5 x
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 128 + 1 * (x 1).val = (x 1).val; rw [e1]; omega

theorem blk_b2 (c : Dev nD) (t : Fin cfg0.N) : (iblk0 V c 5 t : Vec Ideal S1x128 .f32) = b2 V c := by
  obtain ⟨-, -, -, -, -, -, -, -, -, -, e0, e1, -⟩ := idx_facts t
  funext x
  unfold iblk0
  rw [View.read_apply]
  show V c main_v12 _ = V c main_v12 x
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-- What the body leaves at `j` of its block at point `t` is the message array at the index `i` that `j` has in the
    array: row `25000·t + j₀`, the same column. -/
theorem block_eq (c : Dev nD) (t : Fin cfg0.N) (j : S25000x128.Idx) (i : S1600000x128.Idx)
    (hi0 : (i 0).val = 25000 * t.val + (j 0).val) (hi1 : (i 1).val = (j 1).val) :
    out0_6 (iblk0 V c 0 t) (iblk0 V c 1 t) (iblk0 V c 2 t) (iblk0 V c 3 t) (iblk0 V c 4 t) (iblk0 V c 5 t) j = msg V c i := by
  obtain ⟨p, q, rfl⟩ : ∃ (p : Fin 25000) (q : Fin 128), j = ix2 p q := ⟨j 0, j 1, eq_ix2 j⟩
  refine (out_apply (iblk0 V c 0 t) (iblk0 V c 1 t) (iblk0 V c 2 t) (iblk0 V c 3 t) (iblk0 V c 4 t) (iblk0 V c 5 t) p q).trans ?_
  have h0 : (fun a : Fin 4 => (iblk0 V c 0 t : Vec Ideal S25000x4 .f32) (ix2 p a)) = fun a => xg V c (ix2 (i 0) a) :=
    funext fun a => blk_xg V c t (ix2 p a) (ix2 (i 0) a) hi0 rfl
  have h1 : (fun a : Fin 39 => (iblk0 V c 1 t : Vec Ideal S25000x39 .f32) (ix2 p a)) = fun a => ea V c (ix2 (i 0) a) :=
    funext fun a => blk_ea V c t (ix2 p a) (ix2 (i 0) a) hi0 rfl
  have hq : q = (i 1 : Fin 128) := Fin.ext hi1.symm
  unfold msg msgRow
  rw [h0, h1, blk_w1 V c t, blk_b1 V c t, blk_w2 V c t, blk_b2 V c t, hq]

/-- WHAT POINT `t` WRITES BACK is block `t` of the message array. -/
theorem flushed_eq (c : Dev nD) (t : Fin cfg0.N) :
    (dat0 V c).flushed 6 t = ((cfg0.win 6).blk t).view.read (Elt Ideal) (msg V c) := by
  obtain ⟨-, -, -, -, -, -, -, -, -, -, -, -, e0, e1⟩ := idx_facts t
  show (cfg0.win 6).cut (grid0.coords t) ((dat0 V c).after 6 t) = _
  rw [after0_6]
  funext j
  rw [View.read_apply]
  refine block_eq V c t j _ ?_ ?_
  · show win0_6.index t (0 : Fin 2) * 25000 + 1 * (j 0).val = 25000 * t.val + (j 0).val; rw [e0]; omega
  · show win0_6.index t (1 : Fin 2) * 128 + 1 * (j 1).val = (j 1).val; rw [e1]; omega

/-- An index of the array is in point `t`'s block iff each coordinate is in the block's range on its axis. -/
theorem mem_blk (t : Fin cfg0.N) (i : S1600000x128.Idx) :
    i ∈ ((cfg0.win 6).blk t).view.set ↔ ∀ a : Fin 2, win0_6.index t a * S25000x128.size a ≤ (i a).val ∧ (i a).val < win0_6.index t a * S25000x128.size a + S25000x128.size a := by
  show i ∈ ((View.whole main_v13).slice (win0_6.rect t)).set ↔ _
  rw [View.set_slice_whole, Rect.mem_set_unit]
  exact Iff.rfl

/-- Every row is in some point's block: row `r` in block `r / 25000`. -/
theorem cover (i : S1600000x128.Idx) :
    ∃ t : Fin cfg0.N, (cfg0.win 6).flush t = true ∧ i ∈ ((cfg0.win 6).blk t).view.set := by
  have hi0 : (i 0).val < 1600000 := (i 0).isLt
  have hi1 : (i 1).val < 128 := (i 1).isLt
  let t : Fin cfg0.N := ⟨(i 0).val / 25000, by show (i 0).val / 25000 < 64; omega⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 25000 ≤ (i 0).val ∧ (i 0).val < win0_6.index t (0 : Fin 2) * 25000 + 25000
    rw [e0]; show (i 0).val / 25000 * 25000 ≤ (i 0).val ∧ (i 0).val < (i 0).val / 25000 * 25000 + 25000; omega
  | ⟨1, _⟩ =>
    show win0_6.index t (1 : Fin 2) * 128 ≤ (i 1).val ∧ (i 1).val < win0_6.index t (1 : Fin 2) * 128 + 128
    rw [e1]; omega

/-- THE ARRAY after the call: the messages. -/
theorem final (c : Dev nD) : (dat0 V c).arrAt 6 cfg0.N = msg V c :=
  (dat0 V c).arrAt_eq_of_cover 6 (msg V c) (fun t _ => flushed_eq V c t) cover

end Cert.KernelIdeal.Edge

end
-- ==== Proof.NodeValue.lean ====
/-
  THE NODE STAGE. After the second pallas_call its result array holds, in row `n`, the two dense layers (a rectifier
  after each) on the row `[x n · | mean n ·]` — `x` the node features and `mean` the aggregated messages as the call
  finds them —, whatever the grid: point `t` computes rows `10000·t … 10000·t + 9999` from the same rows of the two
  inputs and from the whole weight and bias arrays, and the 10 blocks tile the 100,000 rows.

  Written here: the body's stored value at an index (`out_apply`), each input window's block as rows of its array
  (`blk_*`), what point `t` writes back as block `t` of ONE whole-array function `upd` (`flushed_eq`), the cover by
  arithmetic (row `r` is in block `r / 10000`), and the array after the call (`final`). Stated at any contents `V` the
  call is entered from.
-/
import proofs.«408804_j19292993094373_1_alg».proof.Proof.Gen.KernelIdeal.Frame
import proofs.«408804_j19292993094373_1_alg».proof.Proof.LibMlp2
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Node

open Cert.KernelIdeal Cert.KernelIdeal.Gen Cert.Lib.Mlp2

variable (V : (c : Dev nD) → (b : Ref sig .tc) → Buf (Elt Ideal) ((c : Thread nD τ).loc b))

theorem hz : (![0, 0] : Fin 2 → Nat) = fun _ => 0 := funext fun a => by fin_cases a <;> rfl

/-- The arrays the call's six input windows read, as the call finds them. -/
abbrev xs (c : Dev nD) : FVec Ideal S100000x4 .f32 := V c main_arg0
abbrev mean (c : Dev nD) : FVec Ideal S100000x128 .f32 := V c main_v25
abbrev w3 (c : Dev nD) : FVec Ideal S132x256 .f32 := V c main_arg7
abbrev b3 (c : Dev nD) : FVec Ideal S1x256 .f32 := V c main_v26
abbrev w4 (c : Dev nD) : FVec Ideal S256x256 .f32 := V c main_arg9
abbrev b4 (c : Dev nD) : FVec Ideal S1x256 .f32 := V c main_v27

/-- Row `n` of the updated node features: the two layers on `[x n · | mean n ·]`. -/
def updRow (c : Dev nD) (n : Fin 100000) : Fin 256 → EReal :=
  mlp2 (Ideal.ofBits .f32 0x00000000#32) (fun a => xs V c (ix2 n a)) (fun a => mean V c (ix2 n a))
    (fun l k => w3 V c (ix2 l k)) (fun k => b3 V c (ix2 (0 : Fin 1) k)) (fun k j => w4 V c (ix2 k j))
    (fun j => b4 V c (ix2 (0 : Fin 1) j))

/-- The updated node features as one array. -/
def upd (c : Dev nD) : FVec Ideal S100000x256 .f32 := fun i => updRow V c (i 0) (i 1)

/-- The body's stored value at `(p, q)`: the two layers on row `p` of the two row blocks. -/
theorem out_apply (x0 : Vec Ideal S10000x4 .f32) (x1 : Vec Ideal S10000x128 .f32) (x2 : Vec Ideal S132x256 .f32)
    (x3 : Vec Ideal S1x256 .f32) (x4 : Vec Ideal S256x256 .f32) (x5 : Vec Ideal S1x256 .f32) (p : Fin 10000) (q : Fin 256) :
    out1_6 x0 x1 x2 x3 x4 x5 (ix2 p q)
      = mlp2 (Ideal.ofBits .f32 0x00000000#32) (fun a => x0 (ix2 p a)) (fun a => x1 (ix2 p a)) (fun l k => x2 (ix2 l k))
          (fun k => x3 (ix2 (0 : Fin 1) k)) (fun k j => x4 (ix2 k j)) (fun j => x5 (ix2 (0 : Fin 1) j)) q := by
  unfold out1_6
  rw [View.canon_unit_zero hz]
  simp only [View.ld_unit_zero (S := S10000x4) hz, View.ld_unit_zero (S := S10000x128) hz, View.ld_unit_zero (S := S132x256) hz,
    View.ld_unit_zero (S := S1x256) hz, View.ld_unit_zero (S := S256x256) hz]
  unfold k1_pay1
  simp only [shapeCast_self]
  rw [shapeCast_self]
  exact kernel_mlp2_apply (A := 4) (B := 128) rfl concatenates_S10000x4_S10000x128_S10000x132_d1
    dot_S10000x132_S132x256_S10000x256_1_0_0_1_n_n rfl rfl rfl rfl rfl rfl
    dot_S10000x256_S256x256_S10000x256_1_0_0_1_n_n rfl rfl rfl rfl rfl rfl none none x0 x1 x2 x3 x4 x5
    broadcasts_S1x256_S10000x256 broadcasts_S1x256_S10000x256 0x00000000#32 p q

/-! ## The blocks -/

/-- The printed index maps, decided over the 10 grid points: the two row-blocked inputs and the output are at block
    `(t, 0)`, the weights and biases at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first input's block at point `t` is rows `10000·t …` of the node features. -/
theorem blk_xs (c : Dev nD) (t : Fin cfg1.N) (x : S10000x4.Idx) (k : S100000x4.Idx)
    (hk0 : (k 0).val = 10000 * t.val + (x 0).val) (hk1 : (k 1).val = (x 1).val) :
    (iblk1 V c 0 t : Vec Ideal S10000x4 .f32) x = xs V c k := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 4 + 1 * (x 1).val = (k 1).val; rw [e1, hk1]; omega

/-- The second input's block at point `t` is the same rows of the aggregated messages. -/
theorem blk_mean (c : Dev nD) (t : Fin cfg1.N) (x : S10000x128.Idx) (k : S100000x128.Idx)
    (hk0 : (k 0).val = 10000 * t.val + (x 0).val) (hk1 : (k 1).val = (x 1).val) :
    (iblk1 V c 1 t : Vec Ideal S10000x128 .f32) x = mean V c k := by
  obtain ⟨-, -, e0, e1, -⟩ := idx_facts t
  unfold iblk1
  rw [View.read_apply]
  show V c main_v25 _ = V c main_v25 _
  congr 1
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 128 + 1 * (x 1).val = (k 1).val; rw [e1, hk1]; omega

/-- The weight and bias windows' one block is the whole array, at every point. -/
theorem blk_w3 (c : Dev nD) (t : Fin cfg1.N) : (iblk1 V c 2 t : Vec Ideal S132x256 .f32) = w3 V c := by
  obtain ⟨-, -, -, -, e0, e1, -⟩ := idx_facts t
  funext x
  unfold iblk1
  rw [View.read_apply]
  show V c main_arg7 _ = V c main_arg7 x
  congr 1
  funext a
  apply Fin.ext
  match a with
  | ⟨0, _⟩ => show win1_2.index t (0 : Fin 2) * 132 + 1 * (x 0).val = (x 0).val; rw [e0]; omega
  | ⟨1, _⟩ => show win1_2.index t (1 : Fin 2) * 256 + 1 * (x 1).val = (x 1).val; rw [e1]; omega

theorem blk_b3 (c : Dev nD) (t : Fin cfg1.N) : (iblk1 V c 3 t : Vec Ideal S1x256 .f32) = b3 V c := by
  obtain ⟨-, -, -, -, -, -, e0, e1, -⟩ := idx_facts t
  funext x
  unfold iblk1
  rw [View.read_apply]
  show V c main_v26 _ = V c main_v26 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

theorem blk_w4 (c : Dev nD) (t : Fin cfg1.N) : (iblk1 V c 4 t : Vec Ideal S256x256 .f32) = w4 V c := by
  obtain ⟨-, -, -, -, -, -, -, -, e0, e1, -⟩ := idx_facts t
  funext x
  unfold iblk1
  rw [View.read_apply]
  show V c main_arg9 _ = V c main_arg9 x
  congr 1
  funext a
  apply Fin.ext
  match a with
  | ⟨0, _⟩ => show win1_4.index t (0 : Fin 2) * 256 + 1 * (x 0).val = (x 0).val; rw [e0]; omega
  | ⟨1, _⟩ => show win1_4.index t (1 : Fin 2) * 256 + 1 * (x 1).val = (x 1).val; rw [e1]; omega

theorem blk_b4 (c : Dev nD) (t : Fin cfg1.N) : (iblk1 V c 5 t : Vec Ideal S1x256 .f32) = b4 V c := by
  obtain ⟨-, -, -, -, -, -, -, -, -, -, e0, e1, -⟩ := idx_facts t
  funext x
  unfold iblk1
  rw [View.read_apply]
  show V c main_v27 _ = V c main_v27 x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 256 + 1 * (x 1).val = (x 1).val; rw [e1]; omega

/-- What the body leaves at `j` of its block at point `t` is the updated array at the index `i` that `j` has in the
    array: row `10000·t + j₀`, the same column. -/
theorem block_eq (c : Dev nD) (t : Fin cfg1.N) (j : S10000x256.Idx) (i : S100000x256.Idx)
    (hi0 : (i 0).val = 10000 * t.val + (j 0).val) (hi1 : (i 1).val = (j 1).val) :
    out1_6 (iblk1 V c 0 t) (iblk1 V c 1 t) (iblk1 V c 2 t) (iblk1 V c 3 t) (iblk1 V c 4 t) (iblk1 V c 5 t) j = upd V c i := by
  obtain ⟨p, q, rfl⟩ : ∃ (p : Fin 10000) (q : Fin 256), j = ix2 p q := ⟨j 0, j 1, eq_ix2 j⟩
  refine (out_apply (iblk1 V c 0 t) (iblk1 V c 1 t) (iblk1 V c 2 t) (iblk1 V c 3 t) (iblk1 V c 4 t) (iblk1 V c 5 t) p q).trans ?_
  have h0 : (fun a : Fin 4 => (iblk1 V c 0 t : Vec Ideal S10000x4 .f32) (ix2 p a)) = fun a => xs V c (ix2 (i 0) a) :=
    funext fun a => blk_xs V c t (ix2 p a) (ix2 (i 0) a) hi0 rfl
  have h1 : (fun a : Fin 128 => (iblk1 V c 1 t : Vec Ideal S10000x128 .f32) (ix2 p a)) = fun a => mean V c (ix2 (i 0) a) :=
    funext fun a => blk_mean V c t (ix2 p a) (ix2 (i 0) a) hi0 rfl
  have hq : q = (i 1 : Fin 256) := Fin.ext hi1.symm
  unfold upd updRow
  rw [h0, h1, blk_w3 V c t, blk_b3 V c t, blk_w4 V c t, blk_b4 V c t, hq]

/-- WHAT POINT `t` WRITES BACK is block `t` of the updated array. -/
theorem flushed_eq (c : Dev nD) (t : Fin cfg1.N) :
    (dat1 V c).flushed 6 t = ((cfg1.win 6).blk t).view.read (Elt Ideal) (upd V c) := by
  obtain ⟨-, -, -, -, -, -, -, -, -, -, -, -, e0, e1⟩ := idx_facts t
  show (cfg1.win 6).cut (grid1.coords t) ((dat1 V c).after 6 t) = _
  rw [after1_6]
  funext j
  rw [View.read_apply]
  refine block_eq V c t j _ ?_ ?_
  · show win1_6.index t (0 : Fin 2) * 10000 + 1 * (j 0).val = 10000 * t.val + (j 0).val; rw [e0]; omega
  · show win1_6.index t (1 : Fin 2) * 256 + 1 * (j 1).val = (j 1).val; rw [e1]; omega

/-- An index of the array is in point `t`'s block iff each coordinate is in the block's range on its axis. -/
theorem mem_blk (t : Fin cfg1.N) (i : S100000x256.Idx) :
    i ∈ ((cfg1.win 6).blk t).view.set ↔ ∀ a : Fin 2, win1_6.index t a * S10000x256.size a ≤ (i a).val ∧ (i a).val < win1_6.index t a * S10000x256.size a + S10000x256.size a := by
  show i ∈ ((View.whole main_v28).slice (win1_6.rect t)).set ↔ _
  rw [View.set_slice_whole, Rect.mem_set_unit]
  exact Iff.rfl

/-- Every row is in some point's block: row `r` in block `r / 10000`. -/
theorem cover (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  let t : Fin cfg1.N := ⟨(i 0).val / 10000, by show (i 0).val / 10000 < 10; omega⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    rw [e0]; show (i 0).val / 10000 * 10000 ≤ (i 0).val ∧ (i 0).val < (i 0).val / 10000 * 10000 + 10000; omega
  | ⟨1, _⟩ =>
    show win1_6.index t (1 : Fin 2) * 256 ≤ (i 1).val ∧ (i 1).val < win1_6.index t (1 : Fin 2) * 256 + 256
    rw [e1]; omega

/-- THE ARRAY after the call: the updated node features. -/
theorem final (c : Dev nD) : (dat1 V c).arrAt 6 cfg1.N = upd V c :=
  (dat1 V c).arrAt_eq_of_cover 6 (upd V c) (fun t _ => flushed_eq V c t) cover

end Cert.KernelIdeal.Node

end
-- ==== Proof.Spec.lean ====
/-
  WHAT BOTH PROGRAMS COMPUTE, as one function of the eleven arguments.

  A message-passing layer on a graph of 100,000 nodes and 1,600,000 edges. `ei` holds the edges: row 0 the
  destination node of each edge, row 1 its source node. `gathered x ei` is row `src e` of the node features `x` for
  every edge `e` (a negative source index counted from the end, once). The MESSAGE of edge `e` is two dense layers with
  a rectifier after each on the row `[x (src e) · | ea e ·]`. `nodeMean ei h` adds the rows of `h` into their
  destination nodes and divides each node's sum by the number of its incoming edges, or by one if it has none. The
  RESULT's row `n` is two more dense layers with rectifiers on `[x n · | mean n ·]`.

  The gather, the scatter-add and the division are the host's in both programs, with the same operands in the same
  order: they are carried here as `gathered` and `nodeMean`, never opened. Only the four dense layers are computed
  differently by the two programs (row blocks in a kernel against whole arrays on the host), and those are read at an
  index (the two-layer lemma).
-/
import proofs.«408804_j19292993094373_1_alg».proof.KernelIdeal
import proofs.«408804_j19292993094373_1_alg».proof.Proof.Gen.KernelIdeal
import proofs.«408804_j19292993094373_1_alg».proof.Proof.LibMlp2

noncomputable section

open Idealize.ShloMosaic Idealize.ShloMosaic.ValueIdx

namespace Cert.Spec

open Cert.KernelIdeal Cert.KernelIdeal.Facts₀ Cert.Lib.Mlp2

section Glue
variable {F : FTy → Type} [FloatOps F]

/-- The edges' destination nodes: row 0 of the edge list. -/
def dst (ei : IVec S2x1600000 32) : IVec S1600000 32 :=
  shapeCast S1600000 (extractStridedSlice S1x1600000 ![0, 0] ei slices_S2x1600000_S1x1600000_0_0) shapeCasts_S1x1600000_S1600000

/-- The edges' source nodes: row 1 of the edge list. -/
def src (ei : IVec S2x1600000 32) : IVec S1600000 32 :=
  shapeCast S1600000 (extractStridedSlice S1x1600000 ![1, 0] ei slices_S2x1600000_S1x1600000_1_0) shapeCasts_S1x1600000_S1600000

/-- The source node's features for every edge: a negative index has the node count added, then the rows are gathered. -/
def gathered (x : FVec F S100000x4 .f32) (ei : IVec S2x1600000 32) : FVec F S1600000x4 .f32 :=
  Host.gather gather_S100000x4_S1600000x1_S1600000x4_1_0_n_n_0_1_14 x
    (broadcastInDim S1600000x1 ![0] bcast_S1600000_S1600000x1_0
      (select (cmpi .slt (src ei) (broadcastInDim S1600000 ![] bcast_S_S1600000 (constantI S_ 32 0#32)))
        (addi (src ei) (broadcastInDim S1600000 ![] bcast_S_S1600000 (constantI S_ 32 100000#32)))
        (src ei)))

/-- The mean of the rows of `h` over each node's incoming edges (the sum over the edges whose destination is the node,
    over the count of those edges or one). -/
def nodeMean (ei : IVec S2x1600000 32) (h : FVec F S1600000x128 .f32) : FVec F S100000x128 .f32 :=
  Host.divf
    (Host.scatterAdd scatter_S100000x128_S1600000x1_S1600000x128_1_0_0_1
      (broadcastInDim S100000x128 ![] bcast_S_S100000x128 (constant S_ .f32 0x00000000#32 : FVec F S_ .f32))
      (broadcastInDim S1600000x1 ![0] bcast_S1600000_S1600000x1_0 (dst ei))
      h)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32 : FVec F S_ .f32))
            (broadcastInDim S1600000x1 ![0] bcast_S1600000_S1600000x1_0 (dst ei))
            (broadcastInDim S1600000 ![] bcast_S_S1600000 (constant S_ .f32 0x3F800000#32 : FVec F S_ .f32)))
          (broadcastInDim S100000 ![] bcast_S_S100000 (constant S_ .f32 0x3F800000#32 : FVec F S_ .f32)))))

end Glue

/-- The rectifiers' threshold: the value of the zero word. -/
abbrev zero : EReal := Ideal.ofBits .f32 0x00000000#32

/-- Row `e` of the messages: the two layers on `[x (src e) · | ea e ·]`. -/
def messagesRow (x : FVec Ideal S100000x4 .f32) (ei : IVec S2x1600000 32) (ea : FVec Ideal S1600000x39 .f32)
    (W1 : FVec Ideal S43x64 .f32) (b1 : FVec Ideal S64 .f32) (W2 : FVec Ideal S64x128 .f32) (b2 : FVec Ideal S128 .f32)
    (e : Fin 1600000) : Fin 128 → EReal :=
  mlp2 zero (fun a => gathered x ei (ix2 e a)) (fun a => ea (ix2 e a)) (fun l k => W1 (ix2 l k))
    (fun k => b1 (ix1 k)) (fun k j => W2 (ix2 k j)) (fun j => b2 (ix1 j))

/-- The messages as one array. -/
def messages (x : FVec Ideal S100000x4 .f32) (ei : IVec S2x1600000 32) (ea : FVec Ideal S1600000x39 .f32)
    (W1 : FVec Ideal S43x64 .f32) (b1 : FVec Ideal S64 .f32) (W2 : FVec Ideal S64x128 .f32) (b2 : FVec Ideal S128 .f32) :
    FVec Ideal S1600000x128 .f32 := fun i => messagesRow x ei ea W1 b1 W2 b2 (i 0) (i 1)

/-- Row `n` of the result: the two layers on `[x n · | mean n ·]`, `mean` the messages' mean per destination node. -/
def resultRow (x : FVec Ideal S100000x4 .f32) (ei : IVec S2x1600000 32) (ea : FVec Ideal S1600000x39 .f32)
    (W1 : FVec Ideal S43x64 .f32) (b1 : FVec Ideal S64 .f32) (W2 : FVec Ideal S64x128 .f32) (b2 : FVec Ideal S128 .f32)
    (W3 : FVec Ideal S132x256 .f32) (b3 : FVec Ideal S256 .f32) (W4 : FVec Ideal S256x256 .f32) (b4 : FVec Ideal S256 .f32)
    (n : Fin 100000) : Fin 256 → EReal :=
  mlp2 zero (fun a => x (ix2 n a)) (fun a => nodeMean ei (messages x ei ea W1 b1 W2 b2) (ix2 n a))
    (fun l k => W3 (ix2 l k)) (fun k => b3 (ix1 k)) (fun k j => W4 (ix2 k j)) (fun j => b4 (ix1 j))

/-- The result as one array. -/
def result (x : FVec Ideal S100000x4 .f32) (ei : IVec S2x1600000 32) (ea : FVec Ideal S1600000x39 .f32)
    (W1 : FVec Ideal S43x64 .f32) (b1 : FVec Ideal S64 .f32) (W2 : FVec Ideal S64x128 .f32) (b2 : FVec Ideal S128 .f32)
    (W3 : FVec Ideal S132x256 .f32) (b3 : FVec Ideal S256 .f32) (W4 : FVec Ideal S256x256 .f32) (b4 : FVec Ideal S256 .f32) :
    FVec Ideal S100000x256 .f32 := fun i => resultRow x ei ea W1 b1 W2 b2 W3 b3 W4 b4 (i 0) (i 1)

end Cert.Spec

end
-- ==== Proof.KernelValue.lean ====
/-
  THE KERNEL PROGRAM'S RESULT as the specification's function of the launch arguments.

  The run's last boundary holds the result buffer at what the second call's write-backs leave: the node stage's array
  at the contents the call is entered with (`Node.final`). Those contents are read back here through the host
  operations between the calls: the node features and the second pair of weights are the arguments untouched, the two
  bias rows are the bias vectors reshaped, and the aggregated messages are `nodeMean` of the edge list's destinations
  and of the first call's result array — which is the edge stage's array (`Edge.final`) at the contents THAT call is
  entered with: the gathered features (`gathered`), the edge attributes and the first pair of weights untouched, the
  bias rows reshaped. A reshaped bias vector read at `(0, k)` is the vector at `k`.
-/
import proofs.«408804_j19292993094373_1_alg».proof.Proof.RunValue
import proofs.«408804_j19292993094373_1_alg».proof.Proof.EdgeValue
import proofs.«408804_j19292993094373_1_alg».proof.Proof.NodeValue
import proofs.«408804_j19292993094373_1_alg».proof.Proof.Spec
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen Cert.Spec Cert.Lib.Mlp2

variable (m : (ℓ : Loc nD τ sig) → Buf (Elt Ideal) ℓ) (ρ : Dev nD → PrngReg)

/-- The arguments as launched, each at its literal type. -/
abbrev a0 (c : Dev nD) : FVec Ideal S100000x4 .f32 := m ((c : Thread nD τ).loc main_arg0)
abbrev a1 (c : Dev nD) : IVec S2x1600000 32 := m ((c : Thread nD τ).loc main_arg1)
abbrev a2 (c : Dev nD) : FVec Ideal S1600000x39 .f32 := m ((c : Thread nD τ).loc main_arg2)
abbrev a3 (c : Dev nD) : FVec Ideal S43x64 .f32 := m ((c : Thread nD τ).loc main_arg3)
abbrev a4 (c : Dev nD) : FVec Ideal S64 .f32 := m ((c : Thread nD τ).loc main_arg4)
abbrev a5 (c : Dev nD) : FVec Ideal S64x128 .f32 := m ((c : Thread nD τ).loc main_arg5)
abbrev a6 (c : Dev nD) : FVec Ideal S128 .f32 := m ((c : Thread nD τ).loc main_arg6)
abbrev a7 (c : Dev nD) : FVec Ideal S132x256 .f32 := m ((c : Thread nD τ).loc main_arg7)
abbrev a8 (c : Dev nD) : FVec Ideal S256 .f32 := m ((c : Thread nD τ).loc main_arg8)
abbrev a9 (c : Dev nD) : FVec Ideal S256x256 .f32 := m ((c : Thread nD τ).loc main_arg9)
abbrev a10 (c : Dev nD) : FVec Ideal S256 .f32 := m ((c : Thread nD τ).loc main_arg10)

/-! ## What the first call is entered with -/

theorem xg_eq (c : Dev nD) : Edge.xg (V1 m ρ) c = gathered (a0 m c) (a1 m c) := by
  show (V1 m ρ c main_v10 : FVec Ideal S1600000x4 .f32) = _
  dsimp only [V1, W1]
  after_results
  rfl

theorem ea_eq (c : Dev nD) : Edge.ea (V1 m ρ) c = a2 m c := by
  show (V1 m ρ c main_arg2 : FVec Ideal S1600000x39 .f32) = _
  dsimp only [V1, W1]
  after_results

theorem w1_eq (c : Dev nD) : Edge.w1 (V1 m ρ) c = a3 m c := by
  show (V1 m ρ c main_arg3 : FVec Ideal S43x64 .f32) = _
  dsimp only [V1, W1]
  after_results

theorem w2_eq (c : Dev nD) : Edge.w2 (V1 m ρ) c = a5 m c := by
  show (V1 m ρ c main_arg5 : FVec Ideal S64x128 .f32) = _
  dsimp only [V1, W1]
  after_results

theorem b1_eq (c : Dev nD) (k : Fin 64) : Edge.b1 (V1 m ρ) c (ix2 (0 : Fin 1) k) = a4 m c (ix1 k) := by
  have e : Edge.b1 (V1 m ρ) c = shapeCast S1x64 (a4 m c) Facts₀.shapeCasts_S64_S1x64 := by
    show (V1 m ρ c main_v11 : FVec Ideal S1x64 .f32) = _
    dsimp only [V1, W1]
    after_results
    rfl
  rw [e]
  exact shapeCast_a_1a_apply (a4 m c) Facts₀.shapeCasts_S64_S1x64 0 k

theorem b2_eq (c : Dev nD) (k : Fin 128) : Edge.b2 (V1 m ρ) c (ix2 (0 : Fin 1) k) = a6 m c (ix1 k) := by
  have e : Edge.b2 (V1 m ρ) c = shapeCast S1x128 (a6 m c) Facts₀.shapeCasts_S128_S1x128 := by
    show (V1 m ρ c main_v12 : FVec Ideal S1x128 .f32) = _
    dsimp only [V1, W1]
    after_results
    rfl
  rw [e]
  exact shapeCast_a_1a_apply (a6 m c) Facts₀.shapeCasts_S128_S1x128 0 k

/-- A row of the edge stage's array is that row of the specification's messages of the arguments. -/
theorem msgRow_eq (c : Dev nD) (e : Fin 1600000) :
    Edge.msgRow (V1 m ρ) c e = messagesRow (a0 m c) (a1 m c) (a2 m c) (a3 m c) (a4 m c) (a5 m c) (a6 m c) e := by
  unfold Edge.msgRow messagesRow
  rw [xg_eq m ρ c, ea_eq m ρ c, w1_eq m ρ c, w2_eq m ρ c]
  simp only [b1_eq m ρ c, b2_eq m ρ c]

/-- The edge stage's array is the specification's messages of the arguments. -/
theorem msg_eq (c : Dev nD) :
    Edge.msg (V1 m ρ) c = messages (a0 m c) (a1 m c) (a2 m c) (a3 m c) (a4 m c) (a5 m c) (a6 m c) :=
  funext fun i => congrFun (msgRow_eq m ρ c (i 0)) (i 1)

/-! ## What the second call is entered with -/

/-- The destinations, as the host operations between the calls find them. -/
theorem dst_eq (c : Dev nD) : (W2 m ρ c (Proc.devRef .tc main_v1) : IVec S1600000 32) = dst (a1 m c) :=
  (W2_of_ne m ρ c main_v1 (by decide)).trans (by
    dsimp only [W1]
    after_results
    rfl)

/-- The first call's result array, as the host operations between the calls find it. -/
theorem msgArr_eq (c : Dev nD) :
    (W2 m ρ c (Proc.devRef .tc main_v13) : FVec Ideal S1600000x128 .f32)
      = messages (a0 m c) (a1 m c) (a2 m c) (a3 m c) (a4 m c) (a5 m c) (a6 m c) :=
  ((W2_arr m ρ c 6).trans (Edge.final (V1 m ρ) c)).trans (msg_eq m ρ c)

theorem mean_eq (c : Dev nD) :
    Node.mean (V3 m ρ) c = nodeMean (a1 m c) (messages (a0 m c) (a1 m c) (a2 m c) (a3 m c) (a4 m c) (a5 m c) (a6 m c)) := by
  show (V3 m ρ c main_v25 : FVec Ideal S100000x128 .f32) = _
  dsimp only [V3, W3]
  after_results
  rw [dst_eq m ρ c, msgArr_eq m ρ c]
  rfl

theorem xs_eq (c : Dev nD) : Node.xs (V3 m ρ) c = a0 m c := by
  show (V3 m ρ c main_arg0 : FVec Ideal S100000x4 .f32) = _
  dsimp only [V3, W3]
  after_results
  exact (W2_of_ne m ρ c main_arg0 (by decide)).trans (by
    dsimp only [W1]
    after_results)

theorem w3_eq (c : Dev nD) : Node.w3 (V3 m ρ) c = a7 m c := by
  show (V3 m ρ c main_arg7 : FVec Ideal S132x256 .f32) = _
  dsimp only [V3, W3]
  after_results
  exact (W2_of_ne m ρ c main_arg7 (by decide)).trans (by
    dsimp only [W1]
    after_results)

theorem w4_eq (c : Dev nD) : Node.w4 (V3 m ρ) c = a9 m c := by
  show (V3 m ρ c main_arg9 : FVec Ideal S256x256 .f32) = _
  dsimp only [V3, W3]
  after_results
  exact (W2_of_ne m ρ c main_arg9 (by decide)).trans (by
    dsimp only [W1]
    after_results)

theorem arg8_eq (c : Dev nD) : (W2 m ρ c (Proc.devRef .tc main_arg8) : FVec Ideal S256 .f32) = a8 m c :=
  (W2_of_ne m ρ c main_arg8 (by decide)).trans (by
    dsimp only [W1]
    after_results)

theorem arg10_eq (c : Dev nD) : (W2 m ρ c (Proc.devRef .tc main_arg10) : FVec Ideal S256 .f32) = a10 m c :=
  (W2_of_ne m ρ c main_arg10 (by decide)).trans (by
    dsimp only [W1]
    after_results)

theorem b3_eq (c : Dev nD) (k : Fin 256) : Node.b3 (V3 m ρ) c (ix2 (0 : Fin 1) k) = a8 m c (ix1 k) := by
  have e : Node.b3 (V3 m ρ) c = shapeCast S1x256 (a8 m c) Facts₀.shapeCasts_S256_S1x256 := by
    show (V3 m ρ c main_v26 : FVec Ideal S1x256 .f32) = _
    dsimp only [V3, W3]
    after_results
    rw [arg8_eq m ρ c]
    rfl
  rw [e]
  exact shapeCast_a_1a_apply (a8 m c) Facts₀.shapeCasts_S256_S1x256 0 k

theorem b4_eq (c : Dev nD) (k : Fin 256) : Node.b4 (V3 m ρ) c (ix2 (0 : Fin 1) k) = a10 m c (ix1 k) := by
  have e : Node.b4 (V3 m ρ) c = shapeCast S1x256 (a10 m c) Facts₀.shapeCasts_S256_S1x256 := by
    show (V3 m ρ c main_v27 : FVec Ideal S1x256 .f32) = _
    dsimp only [V3, W3]
    after_results
    rw [arg10_eq m ρ c]
    rfl
  rw [e]
  exact shapeCast_a_1a_apply (a10 m c) Facts₀.shapeCasts_S256_S1x256 0 k

/-- A row of the node stage's array is that row of the specification's result of the arguments. -/
theorem updRow_eq (c : Dev nD) (n : Fin 100000) :
    Node.updRow (V3 m ρ) c n
      = resultRow (a0 m c) (a1 m c) (a2 m c) (a3 m c) (a4 m c) (a5 m c) (a6 m c) (a7 m c) (a8 m c) (a9 m c) (a10 m c) n := by
  unfold Node.updRow resultRow
  rw [xs_eq m ρ c, mean_eq m ρ c, w3_eq m ρ c, w4_eq m ρ c]
  simp only [b3_eq m ρ c, b4_eq m ρ c]

/-- The node stage's array is the specification's result of the arguments. -/
theorem upd_eq (c : Dev nD) :
    Node.upd (V3 m ρ) c
      = result (a0 m c) (a1 m c) (a2 m c) (a3 m c) (a4 m c) (a5 m c) (a6 m c) (a7 m c) (a8 m c) (a9 m c) (a10 m c) :=
  funext fun i => congrFun (updRow_eq m ρ c (i 0)) (i 1)

/-! ## The result buffer at the run's last boundary -/

theorem value (c : Dev nD) :
    (W4 m ρ c (Proc.devRef .tc main_v28) : FVec Ideal S100000x256 .f32)
      = result (a0 m c) (a1 m c) (a2 m c) (a3 m c) (a4 m c) (a5 m c) (a6 m c) (a7 m c) (a8 m c) (a9 m c) (a10 m c) :=
  ((W4_arr m ρ c 6).trans (Node.final (V3 m ρ) c)).trans (upd_eq m ρ c)

end Cert.KernelIdeal.Whole

end
-- ==== Proof.RefValue.lean ====
/-
  THE REFERENCE'S RESULT as the specification's function of the arguments.

  The reference computes the four dense layers on whole arrays. Read at an index, its last two layers are the two
  layers on the row `[x n · | mean n ·]` and its first two the two layers on `[x (src e) · | ea e ·]` (the two-layer
  lemma in the host's spelling); between them stand the same gather and the same scatter-mean as in the
  specification, recognised as `gathered` and `nodeMean` without being opened (the two programs' records of
  dimension numbers are the same lists).
-/
import proofs.«408804_j19292993094373_1_alg».proof.Proof.Gen.ReferenceIdeal.Read
import proofs.«408804_j19292993094373_1_alg».proof.Proof.Spec

set_option maxRecDepth 16384

noncomputable section

open Idealize.ShloMosaic Idealize.ShloMosaic.TcCoe Idealize.SL.Sem Idealize.ShloMosaic.ValueIdx

namespace Cert.ReferenceIdeal.Whole

open Cert.ReferenceIdeal Cert.ReferenceIdeal.Facts₀ Cert.ReferenceIdeal.Read Cert.Lib.Mlp2

section Glue
variable {F : FTy → Type} [FloatOps F]

/-- The reference's gather is the specification's. -/
theorem gathered_eq (x0 : (⟨S100000x4, .f32⟩ : BufTy).Contents (Elt F)) (x1 : (⟨S2x1600000, .i32⟩ : BufTy).Contents (Elt F)) :
    val_main_v10 (F := F) x0 x1 = Cert.Spec.gathered x0 x1 := rfl

/-- The reference's scatter-mean of an array `h` of messages is the specification's. -/
theorem nodeMean_eq (x1 : (⟨S2x1600000, .i32⟩ : BufTy).Contents (Elt F)) (h : (⟨S1600000x128, .f32⟩ : BufTy).Contents (Elt F)) :
    Host.divf (Host.scatterAdd scatter_S100000x128_S1600000x1_S1600000x128_1_0_0_1 (val_main_v22 (F := F)) (val_main_v23 (F := F) x1) h)
        (val_main_v32 (F := F) x1)
      = Cert.Spec.nodeMean x1 h := rfl

end Glue

variable (x0 : (⟨S100000x4, .f32⟩ : BufTy).Contents (Elt Ideal)) (x1 : (⟨S2x1600000, .i32⟩ : BufTy).Contents (Elt Ideal))
  (x2 : (⟨S1600000x39, .f32⟩ : BufTy).Contents (Elt Ideal)) (x3 : (⟨S43x64, .f32⟩ : BufTy).Contents (Elt Ideal))
  (x4 : (⟨S64, .f32⟩ : BufTy).Contents (Elt Ideal)) (x5 : (⟨S64x128, .f32⟩ : BufTy).Contents (Elt Ideal))
  (x6 : (⟨S128, .f32⟩ : BufTy).Contents (Elt Ideal)) (x7 : (⟨S132x256, .f32⟩ : BufTy).Contents (Elt Ideal))
  (x8 : (⟨S256, .f32⟩ : BufTy).Contents (Elt Ideal)) (x9 : (⟨S256x256, .f32⟩ : BufTy).Contents (Elt Ideal))
  (x10 : (⟨S256, .f32⟩ : BufTy).Contents (Elt Ideal))

/-- The reference's array of messages is the specification's. -/
theorem messages_eq : val_main_v21 (F := Ideal) x0 x1 x2 x3 x4 x5 x6 = Cert.Spec.messages x0 x1 x2 x3 x4 x5 x6 := by
  funext i
  obtain ⟨p, q, rfl⟩ : ∃ (p : Fin 1600000) (q : Fin 128), i = ix2 p q := ⟨i 0, i 1, eq_ix2 i⟩
  simp only [val_main_v21, val_main_v20, val_main_v19, val_main_v18, val_main_v17, val_main_v16, val_main_v15, val_main_v14,
    val_main_v13, val_main_v12, val_main_v11, val_main_call0_v0, val_main_call0_cst, val_main_call1_v0, val_main_call1_cst]
  refine (host_mlp2_apply (A := 4) (B := 39) rfl concatenates_S1600000x4_S1600000x39_S1600000x43_d1
    dot_S1600000x43_S43x64_S1600000x64_1_0_0_1_n_n rfl rfl rfl rfl rfl rfl
    dot_S1600000x64_S64x128_S1600000x128_1_0_0_1_n_n rfl rfl rfl rfl rfl rfl none none
    (val_main_v10 (F := Ideal) x0 x1) x2 x3 x4 x5 x6
    bcast_S64_S1x64_1 bcast_S1x64_S1600000x64_0_1 bcast_S_S1600000x64
    bcast_S128_S1x128_1 bcast_S1x128_S1600000x128_0_1 bcast_S_S1600000x128 0x00000000#32 p q).trans ?_
  rw [gathered_eq]
  rfl

/-- THE REFERENCE'S RESULT is the specification's. -/
theorem value : val_main_v44 (F := Ideal) x0 x1 x2 x3 x4 x5 x6 x7 x8 x9 x10
      = Cert.Spec.result x0 x1 x2 x3 x4 x5 x6 x7 x8 x9 x10 := by
  funext i
  obtain ⟨p, q, rfl⟩ : ∃ (p : Fin 100000) (q : Fin 256), i = ix2 p q := ⟨i 0, i 1, eq_ix2 i⟩
  simp only [val_main_v44, val_main_v43, val_main_v42, val_main_v41, val_main_v40, val_main_v39, val_main_v38, val_main_v37,
    val_main_v36, val_main_v35, val_main_v34, val_main_call2_v0, val_main_call2_cst, val_main_call3_v0, val_main_call3_cst]
  refine (host_mlp2_apply (A := 4) (B := 128) rfl concatenates_S100000x4_S100000x128_S100000x132_d1
    dot_S100000x132_S132x256_S100000x256_1_0_0_1_n_n rfl rfl rfl rfl rfl rfl
    dot_S100000x256_S256x256_S100000x256_1_0_0_1_n_n rfl rfl rfl rfl rfl rfl none none
    x0 (val_main_v33 (F := Ideal) x0 x1 x2 x3 x4 x5 x6) x7 x8 x9 x10
    bcast_S256_S1x256_1 bcast_S1x256_S100000x256_0_1 bcast_S_S100000x256
    bcast_S256_S1x256_1 bcast_S1x256_S100000x256_0_1 bcast_S_S100000x256 0x00000000#32 p q).trans ?_
  have hmean : val_main_v33 (F := Ideal) x0 x1 x2 x3 x4 x5 x6
      = Cert.Spec.nodeMean x1 (Cert.Spec.messages x0 x1 x2 x3 x4 x5 x6) := by
    unfold val_main_v33 val_main_v24
    rw [messages_eq, nodeMean_eq]
  rw [hmean]
  rfl

end Cert.ReferenceIdeal.Whole

end
-- ==== Proof.lean ====
/-
  A message-passing layer on a graph (100,000 nodes, 1,600,000 edges): for every edge the source node's features are
  gathered and joined to the edge's attributes, two dense layers with a rectifier after each make the edge's message,
  the messages are averaged over each node's incoming edges, and two more dense layers with rectifiers on the node's
  features joined to that mean give the node's new features.

  The kernel program runs the two pairs of dense layers as two pallas_calls over row blocks (25,000 edges, then 10,000
  nodes, per grid point) and leaves the gather, the scatter-add and the division to the host; the reference runs
  everything on the host over whole arrays. A dense layer's entry `(p, q)` depends on row `p` of its left operand
  only, so a row block of the layer's result is the layer on that row block: at the ideal values both programs end at
  ONE function of the eleven arguments (`Cert.Spec.result`), the kernel program by the two calls' blocks tiling their
  result arrays (`Cert.KernelIdeal.Whole.value`), the reference by reading its four products at an index
  (`Cert.ReferenceIdeal.Whole.value`). The host operations between and before the calls are the same in both programs
  and are never opened. No law of arithmetic beyond a product's entry being a sum over the contracted axis is used,
  so the precondition (finite inputs) is not needed for the values; the three frames are the generated runs.
  The idealization rewrote nothing, so `preserves` has nothing to state.
-/
import proofs.«408804_j19292993094373_1_alg».proof.Defs
import proofs.«408804_j19292993094373_1_alg».proof.Proof.Gen.Kernel
import proofs.«408804_j19292993094373_1_alg».proof.Proof.Gen.Kernel.Skeleton
import proofs.«408804_j19292993094373_1_alg».proof.Proof.Gen.Kernel.Launch
import proofs.«408804_j19292993094373_1_alg».proof.Proof.Gen.Kernel.Points
import proofs.«408804_j19292993094373_1_alg».proof.Proof.Gen.Kernel.Frame
import proofs.«408804_j19292993094373_1_alg».proof.Proof.Gen.KernelIdeal
import proofs.«408804_j19292993094373_1_alg».proof.Proof.Gen.KernelIdeal.Skeleton
import proofs.«408804_j19292993094373_1_alg».proof.Proof.Gen.KernelIdeal.Launch
import proofs.«408804_j19292993094373_1_alg».proof.Proof.Gen.KernelIdeal.Points
import proofs.«408804_j19292993094373_1_alg».proof.Proof.Gen.KernelIdeal.Frame
import proofs.«408804_j19292993094373_1_alg».proof.Proof.Gen.ReferenceIdeal
import proofs.«408804_j19292993094373_1_alg».proof.Proof.Gen.ReferenceIdeal.Run
import proofs.«408804_j19292993094373_1_alg».proof.Proof.Gen.ReferenceIdeal.Read
import proofs.«408804_j19292993094373_1_alg».proof.Proof.Gen.Pre_finite_inputs
import proofs.«408804_j19292993094373_1_alg».proof.Proof.KernelValue
import proofs.«408804_j19292993094373_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs and keeps its arguments: the generated run over its two calls. -/
theorem frame_kernel : Cert.frame_Kernel := fun m ρ _ => Cert.Kernel.Gen.frame m ρ

/-- The same program read at the ideal values. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result buffer at `Cert.Spec.result` of the arguments, which agree. -/
theorem algebraic : Cert.algebraic_KernelIdeal_ReferenceIdeal := by
  intro m ρ m' ρ' _ hagree
  refine ⟨fun c => Cert.Spec.result (Cert.KernelIdeal.Whole.a0 m c) (Cert.KernelIdeal.Whole.a1 m c)
      (Cert.KernelIdeal.Whole.a2 m c) (Cert.KernelIdeal.Whole.a3 m c) (Cert.KernelIdeal.Whole.a4 m c)
      (Cert.KernelIdeal.Whole.a5 m c) (Cert.KernelIdeal.Whole.a6 m c) (Cert.KernelIdeal.Whole.a7 m c)
      (Cert.KernelIdeal.Whole.a8 m c) (Cert.KernelIdeal.Whole.a9 m c) (Cert.KernelIdeal.Whole.a10 m c), ?_, ?_⟩
  · exact (θ_run Cert.KernelIdeal.defs _ _).mono
      (fun r h c => ⟨(h c).1.trans (Cert.KernelIdeal.Whole.value m ρ c), (h c).2⟩)
      (Cert.KernelIdeal.GenValue.run_value m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v44_eq, Cert.ReferenceIdeal.Whole.value, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
